-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x32x128 : Shape := ⟨4, ![4, 4096, 32, 128]⟩
abbrev S4x16x32x128 : Shape := ⟨4, ![4, 16, 32, 128]⟩
abbrev S_ : Shape := ⟨0, ![]⟩

class Facts : Prop where
  bcast_S_S4x4096x32x128 : S_.BroadcastsInDim S4x4096x32x128 (![] : Fin 0 → Fin S4x4096x32x128.rank)
  reducesTo_S4x4096x32x128_S_d0_1_2_3 : S4x4096x32x128.ReducesTo [0, 1, 2, 3] S_
  h_S_ : 0 < S_.numel
  bcast_S_S4x16x32x128 : S_.BroadcastsInDim S4x16x32x128 (![] : Fin 0 → Fin S4x16x32x128.rank)
  reducesTo_S4x16x32x128_S_d0_1_2_3 : S4x16x32x128.ReducesTo [0, 1, 2, 3] S_

variable [Facts]

def fn_part1 {F : FTy → Type} [FloatOps F] (main_v13 : IVec S_ 1) (main_v16 : IVec S4x16x32x128 1) : IVec S_ 1 :=
  let main_c_5 : IVec S_ 1 := constantI S_ 1 1#1
  let main_v17 : IVec S_ 1 := (fun x v => Host.reduce IntOp.andi x v reducesTo_S4x16x32x128_S_d0_1_2_3 h_S_) main_v16 main_c_5
  let main_v18 : IVec S_ 1 := andi main_v13 main_v17
  main_v18

def fn {F : FTy → Type} [FloatOps F] (main_arg0 : FVec F S4x4096x32x128 .f32) (main_arg1 : FVec F S4x4096x32x128 .f32) (main_arg2 : FVec F S4x16x32x128 .f32) (main_arg3 : FVec F S4x16x32x128 .f32) : IVec S_ 1 :=
  let main_v0 : FVec F S4x4096x32x128 .f32 := Host.absf main_arg0
  let main_cst : FVec F S_ .f32 := constant S_ .f32 0x7F800000#32
  let main_v1 : FVec F S4x4096x32x128 .f32 := broadcastInDim S4x4096x32x128 ![] bcast_S_S4x4096x32x128 main_cst
  let main_v2 : IVec S4x4096x32x128 1 := cmpf .olt main_v0 main_v1
  let main_c : IVec S_ 1 := constantI S_ 1 1#1
  let main_v3 : IVec S_ 1 := (fun x v => Host.reduce IntOp.andi x v reducesTo_S4x4096x32x128_S_d0_1_2_3 h_S_) main_v2 main_c
  let main_v4 : FVec F S4x4096x32x128 .f32 := Host.absf main_arg1
  let main_cst_0 : FVec F S_ .f32 := constant S_ .f32 0x7F800000#32
  let main_v5 : FVec F S4x4096x32x128 .f32 := broadcastInDim S4x4096x32x128 ![] bcast_S_S4x4096x32x128 main_cst_0
  let main_v6 : IVec S4x4096x32x128 1 := cmpf .olt main_v4 main_v5
  let main_c_1 : IVec S_ 1 := constantI S_ 1 1#1
  let main_v7 : IVec S_ 1 := (fun x v => Host.reduce IntOp.andi x v reducesTo_S4x4096x32x128_S_d0_1_2_3 h_S_) main_v6 main_c_1
  let main_v8 : IVec S_ 1 := andi main_v3 main_v7
  let main_v9 : FVec F S4x16x32x128 .f32 := Host.absf main_arg2
  let main_cst_2 : FVec F S_ .f32 := constant S_ .f32 0x7F800000#32
  let main_v10 : FVec F S4x16x32x128 .f32 := broadcastInDim S4x16x32x128 ![] bcast_S_S4x16x32x128 main_cst_2
  let main_v11 : IVec S4x16x32x128 1 := cmpf .olt main_v9 main_v10
  let main_c_3 : IVec S_ 1 := constantI S_ 1 1#1
  let main_v12 : IVec S_ 1 := (fun x v => Host.reduce IntOp.andi x v reducesTo_S4x16x32x128_S_d0_1_2_3 h_S_) main_v11 main_c_3
  let main_v13 : IVec S_ 1 := andi main_v8 main_v12
  let main_v14 : FVec F S4x16x32x128 .f32 := Host.absf main_arg3
  let main_cst_4 : FVec F S_ .f32 := constant S_ .f32 0x7F800000#32
  let main_v15 : FVec F S4x16x32x128 .f32 := broadcastInDim S4x16x32x128 ![] bcast_S_S4x16x32x128 main_cst_4
  let main_v16 : IVec S4x16x32x128 1 := cmpf .olt main_v14 main_v15
  fn_part1 (F := F) main_v13 main_v16
-- ==== Kernel.lean ====
abbrev S4x4096x32x128 : Shape := ⟨4, ![4, 4096, 32, 128]⟩
abbrev S4x16x32x128 : Shape := ⟨4, ![4, 16, 32, 128]⟩
abbrev S4x4112x32x128 : Shape := ⟨4, ![4, 4112, 32, 128]⟩
abbrev S1x256x32x128 : Shape := ⟨4, ![1, 256, 32, 128]⟩
abbrev S1x16x32x128 : Shape := ⟨4, ![1, 16, 32, 128]⟩

abbrev nBuf : Space → Nat
  | .hbm => 8
  | .vmem => 20
  | .smem => 0
  | _ => 0

abbrev bufTy : (tb : Table) → Fin (tcTables nBuf tb) → BufTy
  | .hbm, ⟨0, _⟩ => ⟨S4x4096x32x128, .f32⟩
  | .hbm, ⟨1, _⟩ => ⟨S4x4096x32x128, .f32⟩
  | .hbm, ⟨2, _⟩ => ⟨S4x16x32x128, .f32⟩
  | .hbm, ⟨3, _⟩ => ⟨S4x16x32x128, .f32⟩
  | .hbm, ⟨4, _⟩ => ⟨S4x4112x32x128, .f32⟩
  | .hbm, ⟨5, _⟩ => ⟨S4x4112x32x128, .f32⟩
  | .hbm, ⟨6, _⟩ => ⟨S4x4112x32x128, .f32⟩
  | .hbm, ⟨7, _⟩ => ⟨S4x4112x32x128, .f32⟩
  | .local _ .vmem, ⟨0, _⟩ => ⟨S1x256x32x128, .f32⟩
  | .local _ .vmem, ⟨1, _⟩ => ⟨S1x256x32x128, .f32⟩
  | .local _ .vmem, ⟨2, _⟩ => ⟨S1x256x32x128, .f32⟩
  | .local _ .vmem, ⟨3, _⟩ => ⟨S1x256x32x128, .f32⟩
  | .local _ .vmem, ⟨4, _⟩ => ⟨S1x256x32x128, .f32⟩
  | .local _ .vmem, ⟨5, _⟩ => ⟨S1x256x32x128, .f32⟩
  | .local _ .vmem, ⟨6, _⟩ => ⟨S1x256x32x128, .f32⟩
  | .local _ .vmem, ⟨7, _⟩ => ⟨S1x256x32x128, .f32⟩
  | .local _ .vmem, ⟨8, _⟩ => ⟨S1x16x32x128, .f32⟩
  | .local _ .vmem, ⟨9, _⟩ => ⟨S1x16x32x128, .f32⟩
  | .local _ .vmem, ⟨10, _⟩ => ⟨S1x16x32x128, .f32⟩
  | .local _ .vmem, ⟨11, _⟩ => ⟨S1x16x32x128, .f32⟩
  | .local _ .vmem, ⟨12, _⟩ => ⟨S1x16x32x128, .f32⟩
  | .local _ .vmem, ⟨13, _⟩ => ⟨S1x16x32x128, .f32⟩
  | .local _ .vmem, ⟨14, _⟩ => ⟨S1x16x32x128, .f32⟩
  | .local _ .vmem, ⟨15, _⟩ => ⟨S1x16x32x128, .f32⟩
  | .local _ .vmem, ⟨16, _⟩ => ⟨S1x16x32x128, .f32⟩
  | .local _ .vmem, ⟨17, _⟩ => ⟨S1x16x32x128, .f32⟩
  | .local _ .vmem, ⟨18, _⟩ => ⟨S1x16x32x128, .f32⟩
  | .local _ .vmem, ⟨19, _⟩ => ⟨S1x16x32x128, .f32⟩
  | _, _ => ⟨S4x4096x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![4], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c256_i32 : BitVec 32 := 256#32
  let c0_i32 : BitVec 32 := 0#32
  let c0_i32_0 : BitVec 32 := 0#32
  let c0_i32_1 : BitVec 32 := 0#32
  ![arg0.toNat, c256_i32.toNat, c0_i32.toNat, c0_i32_0.toNat]

def cc1_transform_3 (i : grid1.Coords) : Fin 4 → Nat :=
  let arg0 : BitVec 32 := BitVec.ofNat 32 (i 0).val
  let c256_i32 : BitVec 32 := 256#32
  let c0_i32 : BitVec 32 := 0#32
  let c0_i32_0 : BitVec 32 := 0#32
  let c0_i32_1 : BitVec 32 := 0#32
  ![arg0.toNat, c256_i32.toNat, c0_i32.toNat, c0_i32_0.toNat]

def cc1_transform_4 (i : grid1.Coords) : Fin 4 → Nat :=
  let arg0 : BitVec 32 := BitVec.ofNat 32 (i 0).val
  let c256_i32 : BitVec 32 := 256#32
  let c0_i32 : BitVec 32 := 0#32
  let c0_i32_0 : BitVec 32 := 0#32
  let c0_i32_1 : BitVec 32 := 0#32
  ![arg0.toNat, c256_i32.toNat, c0_i32.toNat, c0_i32_0.toNat]

def cc1_transform_5 (i : grid1.Coords) : Fin 4 → Nat :=
  let arg0 : BitVec 32 := BitVec.ofNat 32 (i 0).val
  let c256_i32 : BitVec 32 := 256#32
  let c0_i32 : BitVec 32 := 0#32
  let c0_i32_0 : BitVec 32 := 0#32
  let c0_i32_1 : BitVec 32 := 0#32
  ![arg0.toNat, c256_i32.toNat, c0_i32.toNat, c0_i32_0.toNat]

abbrev stage1_0 : Fin 2 → Memref sig .tc .vmem S1x16x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16x32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x16x32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x16x32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x16x32x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1x256x32x128_S1x256x32x128_0_0_0_0 : ∀ a, (![0, 0, 0, 0] : Fin 4 → Nat) a + S1x256x32x128.size a ≤ S1x256x32x128.size a
  h_S1x256x32x128 : 0 < S1x256x32x128.numel
  inb_S1x16x32x128_S1x16x32x128_0_0_0_0 : ∀ a, (![0, 0, 0, 0] : Fin 4 → Nat) a + S1x16x32x128.size a ≤ S1x16x32x128.size a
  h_S1x16x32x128 : 0 < S1x16x32x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x128.size a ≤ S4x4096x32x128.size a
  hwx0_0 : ∀ i : grid0.Coords, EltTy.bits .f32 = 32 ∨ (Rect.block (s := S4x4096x32x128) S1x256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x32x128.size a ≤ S4x4096x32x128.size a
  hwx0_1 : ∀ i : grid0.Coords, EltTy.bits .f32 = 32 ∨ (Rect.block (s := S4x4096x32x128) S1x256x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x256x32x128.size a < S4x4112x32x128.size a
  hwx0_2 : ∀ i : grid0.Coords, EltTy.bits .f32 = 32 ∨ (Rect.unit (s := S4x4112x32x128) (fun a => cc0_transform_2 i a * S1x256x32x128.size a) (fun a => (Pipeline.Clip.of (cc0_transform_2 i a) (S1x256x32x128.size a) (S4x4112x32x128.size a)).extent (S1x256x32x128.size a)) fun a => Pipeline.Clip.inb (Pipeline.Clip.ok_of (hstart0_2 i a))).WholeWords (EltTy.packing .f32)
  hwxs0_2 : ∀ i : grid0.Coords, EltTy.bits .f32 = 32 ∨ (Rect.unit (s := S1x256x32x128) (fun _ => 0) (fun a => (Pipeline.Clip.of (cc0_transform_2 i a) (S1x256x32x128.size a) (S4x4112x32x128.size a)).extent (S1x256x32x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x256x32x128.size a < S4x4112x32x128.size a
  hwx0_3 : ∀ i : grid0.Coords, EltTy.bits .f32 = 32 ∨ (Rect.unit (s := S4x4112x32x128) (fun a => cc0_transform_3 i a * S1x256x32x128.size a) (fun a => (Pipeline.Clip.of (cc0_transform_3 i a) (S1x256x32x128.size a) (S4x4112x32x128.size a)).extent (S1x256x32x128.size a)) fun a => Pipeline.Clip.inb (Pipeline.Clip.ok_of (hstart0_3 i a))).WholeWords (EltTy.packing .f32)
  hwxs0_3 : ∀ i : grid0.Coords, EltTy.bits .f32 = 32 ∨ (Rect.unit (s := S1x256x32x128) (fun _ => 0) (fun a => (Pipeline.Clip.of (cc0_transform_3 i a) (S1x256x32x128.size a) (S4x4112x32x128.size a)).extent (S1x256x32x128.size a)) fun a => (Nat.zero_add _).trans_le (Pipeline.Clip.extent_le (Pipeline.Clip.ok_of (hstart0_3 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x32x128.size a ≤ S4x16x32x128.size a
  hwx1_0 : ∀ i : grid1.Coords, EltTy.bits .f32 = 32 ∨ (Rect.block (s := S4x16x32x128) S1x16x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x32x128.size a ≤ S4x16x32x128.size a
  hwx1_1 : ∀ i : grid1.Coords, EltTy.bits .f32 = 32 ∨ (Rect.block (s := S4x16x32x128) S1x16x32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x32x128.size a ≤ S4x4112x32x128.size a
  hwx1_2 : ∀ i : grid1.Coords, EltTy.bits .f32 = 32 ∨ (Rect.block (s := S4x4112x32x128) S1x16x32x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x32x128.size a ≤ S4x4112x32x128.size a
  hwx1_3 : ∀ i : grid1.Coords, EltTy.bits .f32 = 32 ∨ (Rect.block (s := S4x4112x32x128) S1x16x32x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x32x128.size a ≤ S4x4112x32x128.size a
  hwx1_4 : ∀ i : grid1.Coords, EltTy.bits .f32 = 32 ∨ (Rect.block (s := S4x4112x32x128) S1x16x32x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x16x32x128.size a ≤ S4x4112x32x128.size a
  hwx1_5 : ∀ i : grid1.Coords, EltTy.bits .f32 = 32 ∨ (Rect.block (s := S4x4112x32x128) S1x16x32x128.size (cc1_transform_5 i) (hinb1_5 i)).WholeWords (EltTy.packing .f32)

variable [Facts₀]

abbrev win0_0 : Pipeline.Window sig grid0 :=
  Pipeline.Window.ofSpec (Memref.whole main_arg0) S1x256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v0_0) S1x256x32x128.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0_1) S1x256x32x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S1x16x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1x16x32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x16x32x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x16x32x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S1x16x32x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S1x16x32x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where
  halias1_4 : Pipeline.Aliased win1 2 4
  halias1_5 : Pipeline.Aliased win1 3 5

variable [Facts]
-- ==== ReferenceIdeal.lean ====
abbrev S4x4096x32x128 : Shape := ⟨4, ![4, 4096, 32, 128]⟩
abbrev S4x16x32x128 : Shape := ⟨4, ![4, 16, 32, 128]⟩
abbrev S4x4112x32x128 : Shape := ⟨4, ![4, 4112, 32, 128]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x32x128, .f32⟩
  | .hbm, ⟨1, _⟩ => ⟨S4x4096x32x128, .f32⟩
  | .hbm, ⟨2, _⟩ => ⟨S4x16x32x128, .f32⟩
  | .hbm, ⟨3, _⟩ => ⟨S4x16x32x128, .f32⟩
  | .hbm, ⟨4, _⟩ => ⟨S4x4112x32x128, .f32⟩
  | .hbm, ⟨5, _⟩ => ⟨S4x4112x32x128, .f32⟩
  | _, _ => ⟨S4x4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S4x4096x32x128_S4x16x32x128_S4x4112x32x128_d1 : Shape.Concatenates [S4x4096x32x128, S4x16x32x128] S4x4112x32x128 1

variable [Facts₀]

class Facts : Prop extends Facts₀ where

variable [Facts]
-- ==== Proof.RowConcat.lean ====
/-
  The function both programs compute, stated once over literal shapes and any element type: two arrays of shapes
  [4, 4096, 32, 128] and [4, 16, 32, 128] joined along axis 1 into [4, 4112, 32, 128]. Output row `r` of batch `b`
  is row `r` of the first array when `r < 4096` and row `r - 4096` of the second otherwise; the other three
  coordinates are carried over. No arithmetic is done on the elements, so nothing here depends on the element
  type, on finiteness, or on the float instance.

  The source index of each branch is written as a TOTAL map of the output index (`r % 4096`, `(r - 4096) % 16`):
  on the branch that uses it the reduction is the identity, and no proof term sits inside an index.
-/
import Idealize.ShloMosaic.Lib.Pipeline.Value
import Idealize.ShloMosaic.Lib.ValueIdx

noncomputable section

namespace Cert.RowConcat

open Idealize.ShloMosaic

/-- The first operand's shape: 4096 rows per batch. -/
abbrev SPast : Shape := ⟨4, ![4, 4096, 32, 128]⟩
/-- The second operand's shape: 16 rows per batch. -/
abbrev SNew : Shape := ⟨4, ![4, 16, 32, 128]⟩
/-- The result's shape: 4096 + 16 rows per batch. -/
abbrev SAll : Shape := ⟨4, ![4, 4112, 32, 128]⟩

/-- Where an output index below row 4096 reads the first operand: the same coordinates. -/
def pastIdx (i : SAll.Idx) : SPast.Idx :=
  ValueIdx.ix4 (n0 := 4) (n1 := 4096) (n2 := 32) (n3 := 128)
    ⟨(i 0).val, (i 0).isLt⟩ ⟨(i 1).val % 4096, Nat.mod_lt _ (by decide)⟩ ⟨(i 2).val, (i 2).isLt⟩ ⟨(i 3).val, (i 3).isLt⟩

/-- Where an output index at or past row 4096 reads the second operand: the row 4096 less, the rest the same. -/
def newIdx (i : SAll.Idx) : SNew.Idx :=
  ValueIdx.ix4 (n0 := 4) (n1 := 16) (n2 := 32) (n3 := 128)
    ⟨(i 0).val, (i 0).isLt⟩ ⟨((i 1).val - 4096) % 16, Nat.mod_lt _ (by decide)⟩ ⟨(i 2).val, (i 2).isLt⟩ ⟨(i 3).val, (i 3).isLt⟩

/-- The join along axis 1, index by index. -/
def rowConcat {α : Type} (past : SPast.Idx → α) (new : SNew.Idx → α) : SAll.Idx → α :=
  fun i => if (i 1).val < 4096 then past (pastIdx i) else new (newIdx i)

theorem rowConcat_of_lt {α : Type} (past : SPast.Idx → α) (new : SNew.Idx → α) (i : SAll.Idx) (h : (i 1).val < 4096) :
    rowConcat past new i = past (pastIdx i) := if_pos h

theorem rowConcat_of_ge {α : Type} (past : SPast.Idx → α) (new : SNew.Idx → α) (i : SAll.Idx) (h : ¬ (i 1).val < 4096) :
    rowConcat past new i = new (newIdx i) := if_neg h

/-- The host's two-piece `concatenate` along axis 1 IS that function: an index whose row falls in the first piece
    reads it at the same coordinates, one past it reads the second piece with the first extent taken off the row. -/
theorem concatenate_eq_rowConcat {α : Type} (x₁ : SPast.Idx → α) (x₂ : SNew.Idx → α)
    (h : Shape.Concatenates [SPast, SNew] SAll 1) :
    concatenate SAll 1 [⟨SPast, x₁⟩, ⟨SNew, x₂⟩] h = rowConcat x₁ x₂ := by
  funext j
  have hj : (j 1).val < 4112 := (j 1).isLt
  by_cases hlt : (j 1).val < 4096
  · rw [rowConcat_of_lt _ _ _ hlt]
    refine concatenate_pair_apply_left 1 x₁ x₂ h j rfl (pastIdx j) ?_
    intro b
    match b with
    | ⟨0, _⟩ => rfl
    | ⟨1, _⟩ => exact Nat.mod_eq_of_lt hlt
    | ⟨2, _⟩ => rfl
    | ⟨3, _⟩ => rfl
  · rw [rowConcat_of_ge _ _ _ hlt]
    refine concatenate_pair_apply_right 1 x₁ x₂ h j rfl rfl (newIdx j) ?_ ?_
    · intro b hb
      match b, hb with
      | ⟨0, _⟩, _ => rfl
      | ⟨1, _⟩, hb => exact absurd rfl hb
      | ⟨2, _⟩, _ => rfl
      | ⟨3, _⟩, _ => rfl
    · show ((j 1).val - 4096) % 16 + 4096 = (j 1).val
      omega

end Cert.RowConcat

end
-- ==== Proof.KernelValue.lean ====
/-
  What the idealized kernel's two result arrays hold when @main returns: the row-join of the cache argument and the
  new-rows argument (`Cert.RowConcat.rowConcat`), read off the frame run's last boundary contents `Gen.W3`.

  The program is two copy regions around a host copy. Region 0, on a 4 x 16 grid, copies block (b, s) of 256 rows of
  each cache argument into the same block of a fresh [4, 4112, 32, 128] array: that fills rows 0..4095 of every batch
  and leaves rows 4096..4111 at whatever the array held. The host then copies each array into the result's buffer.
  Region 1, on a grid of 4, copies the whole [1, 16, 32, 128] block b of each new-rows argument into block (b, 256) of
  16 rows of the result: rows 4096..4111. (It also stages that block of the result as an input and never reads it.)

  So an index of the result with row r < 4096 is not under any block region 1 writes, or is rewritten by nothing that
  changes it, and holds what region 0 wrote there: the cache argument at the same coordinates. An index with
  r >= 4096 lies in region 1's block of its batch and holds the new-rows argument at row r - 4096. Both regions'
  write-backs are blocks of ONE whole-array function, the join itself, which is how the library's lemmas on the
  array after the write-backs are used: region 1's array is the join where a block covers it and its entry contents
  elsewhere; the entry contents are region 0's array (through the host copy), which is the join under region 0's
  blocks; and every row below 4096 is under one of those.
-/
import proofs.«181575_j26972394619628_1_alg».proof.Proof.Gen.KernelIdeal.Frame
import proofs.«181575_j26972394619628_1_alg».proof.Proof.RowConcat
import Idealize.ShloMosaic.Lib.Pipeline.Value
import Idealize.ShloMosaic.Lib.StableHlo.Run

set_option maxRecDepth 16384

noncomputable section

namespace Cert.KernelIdeal.Joined

open Cert.KernelIdeal Cert.KernelIdeal.Gen Cert.RowConcat
open Idealize.ShloMosaic Idealize.ShloMosaic.TcCoe Idealize.SL.Sem

variable {F : FTy → Type} [FloatOps F]
variable (m : (ℓ : Loc nD τ sig) → Buf (Elt F) ℓ) (ρ : Dev nD → PrngReg)

/-- Every store of both bodies is at offset zero of its staging buffer. -/
theorem hz : (![0, 0, 0, 0] : Fin 4 → Nat) = fun _ => 0 := funext fun a => by fin_cases a <;> rfl

/-! ## The index maps, decided once over the two grids -/

/-- Region 0: each output window moves with its input window, block (b, s) at point (b, s), with b < 4 and s < 16;
    the two trailing axes are whole. -/
theorem idx0 : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_2.index t (2 : Fin 4) = 0 ∧ win0_2.index t (3 : Fin 4) = 0
    ∧ win0_2.index t (0 : Fin 4) ≤ 3 ∧ win0_2.index t (1 : Fin 4) ≤ 15 :=
  (by decide +kernel : ∀ t : Fin grid0.N, _)

/-- The same of region 0's second pair of windows. -/
theorem idx0' : ∀ t : Fin cfg0.N,
    win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_3.index t (2 : Fin 4) = 0 ∧ win0_3.index t (3 : Fin 4) = 0
    ∧ win0_3.index t (0 : Fin 4) ≤ 3 ∧ win0_3.index t (1 : Fin 4) ≤ 15 :=
  (by decide +kernel : ∀ t : Fin grid0.N, _)

/-- Region 0's output blocks, which end at row 4096 of 4112, are never cut at the array's end. -/
theorem xsize0 : ∀ t : Fin cfg0.N,
    win0_2.xsize (grid0.coords t) = S1x256x32x128.size ∧ win0_3.xsize (grid0.coords t) = S1x256x32x128.size :=
  (by decide +kernel : ∀ t : Fin grid0.N, _)

/-- Every block (b, s) with b < 4, s < 16 is some point's. -/
theorem onto0 : ∀ (q0 : Fin 4) (q1 : Fin 16), ∃ t : Fin cfg0.N, win0_2.index t = ![q0.val, q1.val, 0, 0] :=
  (by decide +kernel : ∀ (q0 : Fin 4) (q1 : Fin 16), ∃ t : Fin grid0.N, win0_2.index t = ![q0.val, q1.val, 0, 0])

theorem onto0' : ∀ (q0 : Fin 4) (q1 : Fin 16), ∃ t : Fin cfg0.N, win0_3.index t = ![q0.val, q1.val, 0, 0] :=
  (by decide +kernel : ∀ (q0 : Fin 4) (q1 : Fin 16), ∃ t : Fin grid0.N, win0_3.index t = ![q0.val, q1.val, 0, 0])

/-- Region 1: the new-rows window is block (b, 0) at point b, the result's window block (b, 256) of 16 rows. -/
theorem idx1 : ∀ t : Fin cfg1.N,
    win1_0.index t (0 : Fin 4) = win1_4.index t (0 : Fin 4) ∧ win1_0.index t (1 : Fin 4) = 0
    ∧ win1_0.index t (2 : Fin 4) = 0 ∧ win1_0.index t (3 : Fin 4) = 0
    ∧ win1_4.index t (1 : Fin 4) = 256 ∧ win1_4.index t (2 : Fin 4) = 0 ∧ win1_4.index t (3 : Fin 4) = 0
    ∧ win1_4.index t (0 : Fin 4) ≤ 3 :=
  (by decide +kernel : ∀ t : Fin grid1.N, _)

/-- The same of region 1's second pair of windows. -/
theorem idx1' : ∀ t : Fin cfg1.N,
    win1_1.index t (0 : Fin 4) = win1_5.index t (0 : Fin 4) ∧ win1_1.index t (1 : Fin 4) = 0
    ∧ win1_1.index t (2 : Fin 4) = 0 ∧ win1_1.index t (3 : Fin 4) = 0
    ∧ win1_5.index t (1 : Fin 4) = 256 ∧ win1_5.index t (2 : Fin 4) = 0 ∧ win1_5.index t (3 : Fin 4) = 0
    ∧ win1_5.index t (0 : Fin 4) ≤ 3 :=
  (by decide +kernel : ∀ t : Fin grid1.N, _)

/-- Every batch's tail block is some point's. -/
theorem onto1 : ∀ q0 : Fin 4, ∃ t : Fin cfg1.N, win1_4.index t = ![q0.val, 256, 0, 0] :=
  (by decide +kernel : ∀ q0 : Fin 4, ∃ t : Fin grid1.N, win1_4.index t = ![q0.val, 256, 0, 0])

theorem onto1' : ∀ q0 : Fin 4, ∃ t : Fin cfg1.N, win1_5.index t = ![q0.val, 256, 0, 0] :=
  (by decide +kernel : ∀ q0 : Fin 4, ∃ t : Fin grid1.N, win1_5.index t = ![q0.val, 256, 0, 0])

/-! ## The arguments as each region finds them -/

/-- Region 1 finds the new-rows arguments as launched: neither region 0 nor the host copies write them. -/
theorem V2_arg2 (c : Dev nD) : V2 m ρ c main_arg2 = m ((c : Thread nD τ).loc main_arg2) :=
  ((W3_arr m ρ c 0).trans (((dat1 (V2 m ρ) c).arrAt_in 0 rfl _).trans (A_eq1 (V2 m ρ) c 0))).symm.trans (W3_main_arg2 m ρ c)

theorem V2_arg3 (c : Dev nD) : V2 m ρ c main_arg3 = m ((c : Thread nD τ).loc main_arg3) :=
  ((W3_arr m ρ c 1).trans (((dat1 (V2 m ρ) c).arrAt_in 1 rfl _).trans (A_eq1 (V2 m ρ) c 1))).symm.trans (W3_main_arg3 m ρ c)

/-! ## Result 0: the first cache argument joined with the first new-rows argument -/

/-- The join the first result ends at. -/
abbrev joinK (c : Dev nD) : S4x4112x32x128.Idx → Elt F .f32 :=
  rowConcat (α := Elt F .f32) (m ((c : Thread nD τ).loc main_arg0)) (m ((c : Thread nD τ).loc main_arg2))

/-- What point `t` of region 0 writes back to the first output is block `t` of the join: the body stores the cache
    block it loaded, whose rows `s * 256 + y` are below 4096. -/
theorem flushed0_2_eq (c : Dev nD) (t : Fin cfg0.N) :
    (dat0 (V0 m ρ) c).flushed 2 t = ((cfg0.win 2).blk t).view.read (Elt F) (joinK m c) := by
  show (cfg0.win 2).cut (grid0.coords t) ((dat0 (V0 m ρ) c).after 2 t) = _
  rw [after0_2]
  unfold out0_2
  rw [View.canon_unit_zero hz]
  simp only [View.ld_unit_zero (S := S1x256x32x128) hz]
  obtain ⟨e0, e1, e2, e3, e4, e5, e6, e7⟩ := idx0 t
  funext j
  have hj0 : (j 0).val < 1 := Nat.lt_of_lt_of_le (j 0).isLt (win0_2.xsize_le (grid0.coords t) 0)
  have hj1 : (j 1).val < 256 := Nat.lt_of_lt_of_le (j 1).isLt (win0_2.xsize_le (grid0.coords t) 1)
  have hj2 : (j 2).val < 32 := Nat.lt_of_lt_of_le (j 2).isLt (win0_2.xsize_le (grid0.coords t) 2)
  have hj3 : (j 3).val < 128 := Nat.lt_of_lt_of_le (j 3).isLt (win0_2.xsize_le (grid0.coords t) 3)
  show m ((c : Thread nD τ).loc main_arg0) (((cfg0.win 0).blk t).view.emb (win0_2.xinj (grid0.coords t) j))
      = joinK m c (((cfg0.win 2).blk t).view.emb j)
  have hrow : ((((cfg0.win 2).blk t).view.emb j) 1).val < 4096 := by
    show win0_2.index t (1 : Fin 4) * 256 + 1 * (j 1).val < 4096
    omega
  rw [joinK, rowConcat_of_lt _ _ _ hrow]
  congr 1
  funext a; apply Fin.ext
  match a with
  | ⟨0, _⟩ => show win0_0.index t (0 : Fin 4) * 1 + 1 * (j 0).val = win0_2.index t (0 : Fin 4) * 1 + 1 * (j 0).val; omega
  | ⟨1, _⟩ => show win0_0.index t (1 : Fin 4) * 256 + 1 * (j 1).val = (win0_2.index t (1 : Fin 4) * 256 + 1 * (j 1).val) % 4096; omega
  | ⟨2, _⟩ => show win0_0.index t (2 : Fin 4) * 32 + 1 * (j 2).val = win0_2.index t (2 : Fin 4) * 32 + 1 * (j 2).val; omega
  | ⟨3, _⟩ => show win0_0.index t (3 : Fin 4) * 128 + 1 * (j 3).val = win0_2.index t (3 : Fin 4) * 128 + 1 * (j 3).val; omega

/-- An index is under point `t`'s block of region 0's first output iff each coordinate is in the block's range. -/
theorem mem_blk0_2 (t : Fin cfg0.N) (i : S4x4112x32x128.Idx) :
    i ∈ ((cfg0.win 2).blk t).view.set ↔ ∀ a : Fin 4, win0_2.index t a * S1x256x32x128.size a ≤ (i a).val
      ∧ (i a).val < win0_2.index t a * S1x256x32x128.size a + win0_2.xsize (grid0.coords t) a := by
  show i ∈ ((View.whole main_v0_0).slice (win0_2.rect t)).set ↔ _
  rw [View.set_slice_whole, Rect.mem_set_unit]
  exact Iff.rfl

/-- Every index with row below 4096 is under some point's block: the point of its batch and of its row's 256-block. -/
theorem cover0_2 (i : S4x4112x32x128.Idx) (h : (i 1).val < 4096) :
    ∃ t : Fin cfg0.N, i ∈ ((cfg0.win 2).blk t).view.set := by
  have h0 : (i 0).val < 4 := (i 0).isLt
  have h2 : (i 2).val < 32 := (i 2).isLt
  have h3 : (i 3).val < 128 := (i 3).isLt
  obtain ⟨t, ht⟩ := onto0 ⟨(i 0).val, h0⟩ ⟨(i 1).val / 256, by omega⟩
  have q0 : win0_2.index t (0 : Fin 4) = (i 0).val := congrFun ht 0
  have q1 : win0_2.index t (1 : Fin 4) = (i 1).val / 256 := congrFun ht 1
  have q2 : win0_2.index t (2 : Fin 4) = 0 := congrFun ht 2
  have q3 : win0_2.index t (3 : Fin 4) = 0 := congrFun ht 3
  refine ⟨t, ?_⟩
  rw [mem_blk0_2]
  intro a
  rw [congrFun (xsize0 t).1 a]
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 256 ≤ (i 1).val ∧ (i 1).val < win0_2.index t (1 : Fin 4) * 256 + 256; omega
  | ⟨2, _⟩ => show win0_2.index t (2 : Fin 4) * 32 ≤ (i 2).val ∧ (i 2).val < win0_2.index t (2 : Fin 4) * 32 + 32; omega
  | ⟨3, _⟩ => show win0_2.index t (3 : Fin 4) * 128 ≤ (i 3).val ∧ (i 3).val < win0_2.index t (3 : Fin 4) * 128 + 128; omega

/-- What point `t` of region 1 writes back to the first result is block `t` of the join: the body stores the new-rows
    block it loaded, at rows `4096 + y`. -/
theorem flushed1_4_eq (c : Dev nD) (t : Fin cfg1.N) :
    (dat1 (V2 m ρ) c).flushed 4 t = ((cfg1.win 4).blk t).view.read (Elt F) (joinK m c) := by
  show (cfg1.win 4).cut (grid1.coords t) ((dat1 (V2 m ρ) c).after 4 t) = _
  rw [after1_4]
  unfold out1_4
  rw [View.canon_unit_zero hz]
  simp only [View.ld_unit_zero (S := S1x16x32x128) hz]
  obtain ⟨e0, e1, e2, e3, e4, e5, e6, e7⟩ := idx1 t
  funext j
  have hj0 : (j 0).val < 1 := (j 0).isLt
  have hj1 : (j 1).val < 16 := (j 1).isLt
  have hj2 : (j 2).val < 32 := (j 2).isLt
  have hj3 : (j 3).val < 128 := (j 3).isLt
  show V2 m ρ c main_arg2 (((cfg1.win 0).blk t).view.emb j) = joinK m c (((cfg1.win 4).blk t).view.emb j)
  have hrow : ¬ ((((cfg1.win 4).blk t).view.emb j) 1).val < 4096 := by
    show ¬ win1_4.index t (1 : Fin 4) * 16 + 1 * (j 1).val < 4096
    omega
  rw [joinK, rowConcat_of_ge _ _ _ hrow, V2_arg2]
  congr 1
  funext a; apply Fin.ext
  match a with
  | ⟨0, _⟩ => show win1_0.index t (0 : Fin 4) * 1 + 1 * (j 0).val = win1_4.index t (0 : Fin 4) * 1 + 1 * (j 0).val; omega
  | ⟨1, _⟩ => show win1_0.index t (1 : Fin 4) * 16 + 1 * (j 1).val = (win1_4.index t (1 : Fin 4) * 16 + 1 * (j 1).val - 4096) % 16; omega
  | ⟨2, _⟩ => show win1_0.index t (2 : Fin 4) * 32 + 1 * (j 2).val = win1_4.index t (2 : Fin 4) * 32 + 1 * (j 2).val; omega
  | ⟨3, _⟩ => show win1_0.index t (3 : Fin 4) * 128 + 1 * (j 3).val = win1_4.index t (3 : Fin 4) * 128 + 1 * (j 3).val; omega

/-- An index is under point `t`'s block of region 1's first result iff each coordinate is in the block's range. -/
theorem mem_blk1_4 (t : Fin cfg1.N) (i : S4x4112x32x128.Idx) :
    i ∈ ((cfg1.win 4).blk t).view.set ↔ ∀ a : Fin 4, win1_4.index t a * S1x16x32x128.size a ≤ (i a).val
      ∧ (i a).val < win1_4.index t a * S1x16x32x128.size a + S1x16x32x128.size a := by
  show i ∈ ((View.whole main_v1_0).slice (win1_4.rect t)).set ↔ _
  rw [View.set_slice_whole, Rect.mem_set_unit]
  exact Iff.rfl

/-- Every index with row 4096 or more is under its batch's tail block. -/
theorem cover1_4 (i : S4x4112x32x128.Idx) (h : ¬ (i 1).val < 4096) :
    ∃ t : Fin cfg1.N, (cfg1.win 4).flush t = true ∧ i ∈ ((cfg1.win 4).blk t).view.set := by
  have h0 : (i 0).val < 4 := (i 0).isLt
  have h1 : (i 1).val < 4112 := (i 1).isLt
  have h2 : (i 2).val < 32 := (i 2).isLt
  have h3 : (i 3).val < 128 := (i 3).isLt
  obtain ⟨t, ht⟩ := onto1 ⟨(i 0).val, h0⟩
  have q0 : win1_4.index t (0 : Fin 4) = (i 0).val := congrFun ht 0
  have q1 : win1_4.index t (1 : Fin 4) = 256 := congrFun ht 1
  have q2 : win1_4.index t (2 : Fin 4) = 0 := congrFun ht 2
  have q3 : win1_4.index t (3 : Fin 4) = 0 := congrFun ht 3
  refine ⟨t, flush1_4 t, ?_⟩
  rw [mem_blk1_4]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 16 ≤ (i 1).val ∧ (i 1).val < win1_4.index t (1 : Fin 4) * 16 + 16; omega
  | ⟨2, _⟩ => show win1_4.index t (2 : Fin 4) * 32 ≤ (i 2).val ∧ (i 2).val < win1_4.index t (2 : Fin 4) * 32 + 32; omega
  | ⟨3, _⟩ => show win1_4.index t (3 : Fin 4) * 128 ≤ (i 3).val ∧ (i 3).val < win1_4.index t (3 : Fin 4) * 128 + 128; omega

/-- Region 1 finds the first result's buffer holding what region 0 left in its first output: the host copy between
    them is the identity. -/
theorem V2_v1_0 (c : Dev nD) : V2 m ρ c main_v1_0 = (dat0 (V0 m ρ) c).arrAt 2 cfg0.N := by
  refine Eq.trans ?_ (W1_arr m ρ c 2)
  show StableHlo.after hostOps1 (W1 m ρ c) (Proc.devRef .tc main_v1_0) = _
  after_results
  rfl

/-- THE FIRST RESULT at @main's return is the join of the first cache argument and the first new-rows argument. -/
theorem result0 (c : Dev nD) : W3 m ρ c (Proc.devRef .tc main_v1_0) = joinK m c := by
  refine (W3_arr m ρ c 4).trans ?_
  funext i
  rw [(dat1 (V2 m ρ) c).arrAt_eq_piecewise 4 (joinK m c) (fun t _ => flushed1_4_eq m ρ c t) i]
  split
  · rfl
  · rename_i hno
    have hlt : (i 1).val < 4096 := by
      by_contra hge; exact hno (cover1_4 i hge)
    rw [A_eq1]
    show V2 m ρ c main_v1_0 i = _
    rw [V2_v1_0]
    obtain ⟨t, ht⟩ := cover0_2 i hlt
    exact (dat0 (V0 m ρ) c).arrAt_apply_of_mem 2 (joinK m c) (fun t _ => flushed0_2_eq m ρ c t) cfg0.N t i t.isLt (flush0_2 t) ht

/-! ## Result 1: the second cache argument joined with the second new-rows argument

The same argument over the programs' second pair of arrays: region 0's windows 1 and 3, region 1's windows 1 and 5. -/

/-- The join the second result ends at. -/
abbrev joinV (c : Dev nD) : S4x4112x32x128.Idx → Elt F .f32 :=
  rowConcat (α := Elt F .f32) (m ((c : Thread nD τ).loc main_arg1)) (m ((c : Thread nD τ).loc main_arg3))

/-- What point `t` of region 0 writes back to the second output is block `t` of the join. -/
theorem flushed0_3_eq (c : Dev nD) (t : Fin cfg0.N) :
    (dat0 (V0 m ρ) c).flushed 3 t = ((cfg0.win 3).blk t).view.read (Elt F) (joinV m c) := by
  show (cfg0.win 3).cut (grid0.coords t) ((dat0 (V0 m ρ) c).after 3 t) = _
  rw [after0_3]
  unfold out0_3
  rw [View.canon_unit_zero hz]
  simp only [View.ld_unit_zero (S := S1x256x32x128) hz]
  obtain ⟨e0, e1, e2, e3, e4, e5, e6, e7⟩ := idx0' t
  funext j
  have hj0 : (j 0).val < 1 := Nat.lt_of_lt_of_le (j 0).isLt (win0_3.xsize_le (grid0.coords t) 0)
  have hj1 : (j 1).val < 256 := Nat.lt_of_lt_of_le (j 1).isLt (win0_3.xsize_le (grid0.coords t) 1)
  have hj2 : (j 2).val < 32 := Nat.lt_of_lt_of_le (j 2).isLt (win0_3.xsize_le (grid0.coords t) 2)
  have hj3 : (j 3).val < 128 := Nat.lt_of_lt_of_le (j 3).isLt (win0_3.xsize_le (grid0.coords t) 3)
  show m ((c : Thread nD τ).loc main_arg1) (((cfg0.win 1).blk t).view.emb (win0_3.xinj (grid0.coords t) j))
      = joinV m c (((cfg0.win 3).blk t).view.emb j)
  have hrow : ((((cfg0.win 3).blk t).view.emb j) 1).val < 4096 := by
    show win0_3.index t (1 : Fin 4) * 256 + 1 * (j 1).val < 4096
    omega
  rw [joinV, rowConcat_of_lt _ _ _ hrow]
  congr 1
  funext a; apply Fin.ext
  match a with
  | ⟨0, _⟩ => show win0_1.index t (0 : Fin 4) * 1 + 1 * (j 0).val = win0_3.index t (0 : Fin 4) * 1 + 1 * (j 0).val; omega
  | ⟨1, _⟩ => show win0_1.index t (1 : Fin 4) * 256 + 1 * (j 1).val = (win0_3.index t (1 : Fin 4) * 256 + 1 * (j 1).val) % 4096; omega
  | ⟨2, _⟩ => show win0_1.index t (2 : Fin 4) * 32 + 1 * (j 2).val = win0_3.index t (2 : Fin 4) * 32 + 1 * (j 2).val; omega
  | ⟨3, _⟩ => show win0_1.index t (3 : Fin 4) * 128 + 1 * (j 3).val = win0_3.index t (3 : Fin 4) * 128 + 1 * (j 3).val; omega

theorem mem_blk0_3 (t : Fin cfg0.N) (i : S4x4112x32x128.Idx) :
    i ∈ ((cfg0.win 3).blk t).view.set ↔ ∀ a : Fin 4, win0_3.index t a * S1x256x32x128.size a ≤ (i a).val
      ∧ (i a).val < win0_3.index t a * S1x256x32x128.size a + win0_3.xsize (grid0.coords t) a := by
  show i ∈ ((View.whole main_v0_1).slice (win0_3.rect t)).set ↔ _
  rw [View.set_slice_whole, Rect.mem_set_unit]
  exact Iff.rfl

theorem cover0_3 (i : S4x4112x32x128.Idx) (h : (i 1).val < 4096) :
    ∃ t : Fin cfg0.N, i ∈ ((cfg0.win 3).blk t).view.set := by
  have h0 : (i 0).val < 4 := (i 0).isLt
  have h2 : (i 2).val < 32 := (i 2).isLt
  have h3 : (i 3).val < 128 := (i 3).isLt
  obtain ⟨t, ht⟩ := onto0' ⟨(i 0).val, h0⟩ ⟨(i 1).val / 256, by omega⟩
  have q0 : win0_3.index t (0 : Fin 4) = (i 0).val := congrFun ht 0
  have q1 : win0_3.index t (1 : Fin 4) = (i 1).val / 256 := congrFun ht 1
  have q2 : win0_3.index t (2 : Fin 4) = 0 := congrFun ht 2
  have q3 : win0_3.index t (3 : Fin 4) = 0 := congrFun ht 3
  refine ⟨t, ?_⟩
  rw [mem_blk0_3]
  intro a
  rw [congrFun (xsize0 t).2 a]
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 256 ≤ (i 1).val ∧ (i 1).val < win0_3.index t (1 : Fin 4) * 256 + 256; omega
  | ⟨2, _⟩ => show win0_3.index t (2 : Fin 4) * 32 ≤ (i 2).val ∧ (i 2).val < win0_3.index t (2 : Fin 4) * 32 + 32; omega
  | ⟨3, _⟩ => show win0_3.index t (3 : Fin 4) * 128 ≤ (i 3).val ∧ (i 3).val < win0_3.index t (3 : Fin 4) * 128 + 128; omega

/-- What point `t` of region 1 writes back to the second result is block `t` of the join. -/
theorem flushed1_5_eq (c : Dev nD) (t : Fin cfg1.N) :
    (dat1 (V2 m ρ) c).flushed 5 t = ((cfg1.win 5).blk t).view.read (Elt F) (joinV m c) := by
  show (cfg1.win 5).cut (grid1.coords t) ((dat1 (V2 m ρ) c).after 5 t) = _
  rw [after1_5]
  unfold out1_5
  rw [View.canon_unit_zero hz]
  simp only [View.ld_unit_zero (S := S1x16x32x128) hz]
  obtain ⟨e0, e1, e2, e3, e4, e5, e6, e7⟩ := idx1' t
  funext j
  have hj0 : (j 0).val < 1 := (j 0).isLt
  have hj1 : (j 1).val < 16 := (j 1).isLt
  have hj2 : (j 2).val < 32 := (j 2).isLt
  have hj3 : (j 3).val < 128 := (j 3).isLt
  show V2 m ρ c main_arg3 (((cfg1.win 1).blk t).view.emb j) = joinV m c (((cfg1.win 5).blk t).view.emb j)
  have hrow : ¬ ((((cfg1.win 5).blk t).view.emb j) 1).val < 4096 := by
    show ¬ win1_5.index t (1 : Fin 4) * 16 + 1 * (j 1).val < 4096
    omega
  rw [joinV, rowConcat_of_ge _ _ _ hrow, V2_arg3]
  congr 1
  funext a; apply Fin.ext
  match a with
  | ⟨0, _⟩ => show win1_1.index t (0 : Fin 4) * 1 + 1 * (j 0).val = win1_5.index t (0 : Fin 4) * 1 + 1 * (j 0).val; omega
  | ⟨1, _⟩ => show win1_1.index t (1 : Fin 4) * 16 + 1 * (j 1).val = (win1_5.index t (1 : Fin 4) * 16 + 1 * (j 1).val - 4096) % 16; omega
  | ⟨2, _⟩ => show win1_1.index t (2 : Fin 4) * 32 + 1 * (j 2).val = win1_5.index t (2 : Fin 4) * 32 + 1 * (j 2).val; omega
  | ⟨3, _⟩ => show win1_1.index t (3 : Fin 4) * 128 + 1 * (j 3).val = win1_5.index t (3 : Fin 4) * 128 + 1 * (j 3).val; omega

theorem mem_blk1_5 (t : Fin cfg1.N) (i : S4x4112x32x128.Idx) :
    i ∈ ((cfg1.win 5).blk t).view.set ↔ ∀ a : Fin 4, win1_5.index t a * S1x16x32x128.size a ≤ (i a).val
      ∧ (i a).val < win1_5.index t a * S1x16x32x128.size a + S1x16x32x128.size a := by
  show i ∈ ((View.whole main_v1_1).slice (win1_5.rect t)).set ↔ _
  rw [View.set_slice_whole, Rect.mem_set_unit]
  exact Iff.rfl

theorem cover1_5 (i : S4x4112x32x128.Idx) (h : ¬ (i 1).val < 4096) :
    ∃ t : Fin cfg1.N, (cfg1.win 5).flush t = true ∧ i ∈ ((cfg1.win 5).blk t).view.set := by
  have h0 : (i 0).val < 4 := (i 0).isLt
  have h1 : (i 1).val < 4112 := (i 1).isLt
  have h2 : (i 2).val < 32 := (i 2).isLt
  have h3 : (i 3).val < 128 := (i 3).isLt
  obtain ⟨t, ht⟩ := onto1' ⟨(i 0).val, h0⟩
  have q0 : win1_5.index t (0 : Fin 4) = (i 0).val := congrFun ht 0
  have q1 : win1_5.index t (1 : Fin 4) = 256 := congrFun ht 1
  have q2 : win1_5.index t (2 : Fin 4) = 0 := congrFun ht 2
  have q3 : win1_5.index t (3 : Fin 4) = 0 := congrFun ht 3
  refine ⟨t, flush1_5 t, ?_⟩
  rw [mem_blk1_5]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 16 ≤ (i 1).val ∧ (i 1).val < win1_5.index t (1 : Fin 4) * 16 + 16; omega
  | ⟨2, _⟩ => show win1_5.index t (2 : Fin 4) * 32 ≤ (i 2).val ∧ (i 2).val < win1_5.index t (2 : Fin 4) * 32 + 32; omega
  | ⟨3, _⟩ => show win1_5.index t (3 : Fin 4) * 128 ≤ (i 3).val ∧ (i 3).val < win1_5.index t (3 : Fin 4) * 128 + 128; omega

theorem V2_v1_1 (c : Dev nD) : V2 m ρ c main_v1_1 = (dat0 (V0 m ρ) c).arrAt 3 cfg0.N := by
  refine Eq.trans ?_ (W1_arr m ρ c 3)
  show StableHlo.after hostOps1 (W1 m ρ c) (Proc.devRef .tc main_v1_1) = _
  after_results
  rfl

/-- THE SECOND RESULT at @main's return is the join of the second cache argument and the second new-rows argument. -/
theorem result1 (c : Dev nD) : W3 m ρ c (Proc.devRef .tc main_v1_1) = joinV m c := by
  refine (W3_arr m ρ c 5).trans ?_
  funext i
  rw [(dat1 (V2 m ρ) c).arrAt_eq_piecewise 5 (joinV m c) (fun t _ => flushed1_5_eq m ρ c t) i]
  split
  · rfl
  · rename_i hno
    have hlt : (i 1).val < 4096 := by
      by_contra hge; exact hno (cover1_5 i hge)
    rw [A_eq1]
    show V2 m ρ c main_v1_1 i = _
    rw [V2_v1_1]
    obtain ⟨t, ht⟩ := cover0_3 i hlt
    exact (dat0 (V0 m ρ) c).arrAt_apply_of_mem 3 (joinV m c) (fun t _ => flushed0_3_eq m ρ c t) cfg0.N t i t.isLt (flush0_3 t) ht

end Cert.KernelIdeal.Joined

end
-- ==== Proof.Reference.lean ====
/-
  The reference program's run, with each result named as the row-join of its two arguments.

  The reference is two host `concatenate`s along axis 1: result 0 joins arguments 0 and 2, result 1 joins arguments
  1 and 3. Its generated run states each result at that `concatenate` term of the launch contents; read index by
  index (`Cert.RowConcat.concatenate_eq_rowConcat`) the term is `rowConcat`: rows below 4096 from the first
  argument, the sixteen rows from 4096 on from the second.
-/
import proofs.«181575_j26972394619628_1_alg».proof.Proof.Gen.ReferenceIdeal.Run
import proofs.«181575_j26972394619628_1_alg».proof.Proof.RowConcat

noncomputable section

namespace Cert.ReferenceIdeal.Joined

open Cert.ReferenceIdeal Cert.ReferenceIdeal.Gen Idealize.ShloMosaic Idealize.ShloMosaic.TcCoe Idealize.SL.Sem
open Cert.RowConcat

variable {F : FTy → Type} [FloatOps F]

/-- Every weakly fair execution of the reference terminates with result 0 at the join of arguments 0 and 2, result 1
    at the join of arguments 1 and 3, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = rowConcat (α := Elt F .f32) (m ((c.tc : Thread nD τ).loc main_arg0)) (m ((c.tc : Thread nD τ).loc main_arg2))
      ∧ r.2.mem ((c.tc : Thread nD τ).loc main_v1)
          = rowConcat (α := Elt F .f32) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans (concatenate_eq_rowConcat _ _ _),
       (h c).2.1.trans (concatenate_eq_rowConcat _ _ _),
       (h c).2.2⟩)
    (Cert.ReferenceIdeal.Value.run (F := F) m ρ)

end Cert.ReferenceIdeal.Joined

end
-- ==== Proof.lean ====
/-
  The kernel appends sixteen new rows to a 4096-row cache, for two arrays at once (keys and values), as two copy
  regions: the first copies the cache into rows 0..4095 of a fresh [4, 4112, 32, 128] array, 256 rows at a time; the
  second, run in place on that array, copies the new rows into rows 4096..4111. The reference is the join of the
  two arrays along the row axis. Nothing is computed on the elements, so the two programs agree element by element
  for every input, finite or not, and the idealization rewrote nothing.

  The three frames: the two kernel programs' are the generated frame certificates; the reference's is its generated
  run with the results dropped. The value claim: the idealized kernel's run ends with each result at the join of its
  cache and new-rows arguments (`Cert.KernelIdeal.Results.run` names the results at the run's last boundary contents,
  `Cert.KernelIdeal.Joined.result0` / `result1` read those as the join), and so does the reference's
  (`Cert.ReferenceIdeal.Joined.run`); on memories that agree on the arguments the two joins are one function.
-/
import proofs.«181575_j26972394619628_1_alg».proof.Defs
import proofs.«181575_j26972394619628_1_alg».proof.Proof.Gen.Kernel
import proofs.«181575_j26972394619628_1_alg».proof.Proof.Gen.Kernel.Frame
import proofs.«181575_j26972394619628_1_alg».proof.Proof.Gen.KernelIdeal
import proofs.«181575_j26972394619628_1_alg».proof.Proof.Gen.KernelIdeal.Frame
import proofs.«181575_j26972394619628_1_alg».proof.Proof.Gen.ReferenceIdeal
import proofs.«181575_j26972394619628_1_alg».proof.Proof.Gen.Pre_finite_inputs
import proofs.«181575_j26972394619628_1_alg».proof.Proof.KernelIdealRun
import proofs.«181575_j26972394619628_1_alg».proof.Proof.KernelValue
import proofs.«181575_j26972394619628_1_alg».proof.Proof.Reference
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Joined.run (F := Ideal) m ρ)

/-- Both idealized programs end with result 0 at the join of arguments 0 and 2 and result 1 at the join of arguments
    1 and 3; the reference's arguments are the kernel's. -/
theorem algebraic : Cert.algebraic_KernelIdeal_ReferenceIdeal := by
  intro m ρ m' ρ' _ hagree
  refine ⟨fun c => Cert.KernelIdeal.Joined.joinK m c, fun c => Cert.KernelIdeal.Joined.joinV m c, ?_, ?_⟩
  · exact (θ_run Cert.KernelIdeal.defs _ _).mono
      (fun r h c => ⟨(h c).1.trans (Cert.KernelIdeal.Joined.result0 m ρ c),
        (h c).2.1.trans (Cert.KernelIdeal.Joined.result1 m ρ c), (h c).2.2⟩)
      (Cert.KernelIdeal.Results.run (F := Ideal) m ρ)
  · refine (θ_run Cert.ReferenceIdeal.defs _ _).mono (fun r h c => ⟨(h c).1.trans ?_, (h c).2.1.trans ?_, (h c).2.2⟩)
      (Cert.ReferenceIdeal.Joined.run (F := Ideal) m' ρ')
    · rw [(hagree c).1, (hagree c).2.2.1]
    · rw [(hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
